-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x1280 : Shape := ⟨2, ![100000, 1280]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x1280 : S_.BroadcastsInDim S100000x1280 (![] : Fin 0 → Fin S100000x1280.rank)
  reducesTo_S100000x1280_S_d0_1 : S100000x1280.ReducesTo [0, 1] S_

variable [Facts]

def fn {F : FTy → Type} [FloatOps F] (main_arg0 : FVec F S100000 .f32) (main_arg1 : FVec F S100000x1280 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000x1280 .f32 := Host.absf main_arg1
  let main_cst_0 : FVec F S_ .f32 := constant S_ .f32 0x7F800000#32
  let main_v5 : FVec F S100000x1280 .f32 := broadcastInDim S100000x1280 ![] bcast_S_S100000x1280 main_cst_0
  let main_v6 : IVec S100000x1280 1 := cmpf .olt main_v4 main_v5
  let main_c_1 : IVec S_ 1 := constantI S_ 1 1#1
  let main_v7 : IVec S_ 1 := (fun x v => Host.reduce IntOp.andi x v reducesTo_S100000x1280_S_d0_1 h_S_) main_v6 main_c_1
  let main_v8 : IVec S_ 1 := andi main_v3 main_v7
  main_v8
-- ==== Kernel.lean ====
abbrev S100000 : Shape := ⟨1, ![100000]⟩
abbrev S100000x1280 : Shape := ⟨2, ![100000, 1280]⟩
abbrev S100000x1 : Shape := ⟨2, ![100000, 1]⟩
abbrev S800x1 : Shape := ⟨2, ![800, 1]⟩
abbrev S800x1280 : Shape := ⟨2, ![800, 1280]⟩
abbrev S100000x5x256 : Shape := ⟨3, ![100000, 5, 256]⟩

abbrev nBuf : Space → Nat
  | .hbm => 5
  | .vmem => 6
  | .smem => 0
  | _ => 0

abbrev bufTy : (tb : Table) → Fin (tcTables nBuf tb) → BufTy
  | .hbm, ⟨0, _⟩ => ⟨S100000, .f32⟩
  | .hbm, ⟨1, _⟩ => ⟨S100000x1280, .f32⟩
  | .hbm, ⟨2, _⟩ => ⟨S100000x1, .f32⟩
  | .hbm, ⟨3, _⟩ => ⟨S100000x1280, .f32⟩
  | .hbm, ⟨4, _⟩ => ⟨S100000x5x256, .f32⟩
  | .local _ .vmem, ⟨0, _⟩ => ⟨S800x1, .f32⟩
  | .local _ .vmem, ⟨1, _⟩ => ⟨S800x1, .f32⟩
  | .local _ .vmem, ⟨2, _⟩ => ⟨S800x1280, .f32⟩
  | .local _ .vmem, ⟨3, _⟩ => ⟨S800x1280, .f32⟩
  | .local _ .vmem, ⟨4, _⟩ => ⟨S800x1280, .f32⟩
  | .local _ .vmem, ⟨5, _⟩ => ⟨S800x1280, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000_S100000x1 : S100000.ShapeCasts S100000x1
  inb_S800x1_S800x1_0_0 : ∀ a, (![0, 0] : Fin 2 → Nat) a + S800x1.size a ≤ S800x1.size a
  h_S800x1 : 0 < S800x1.numel
  shapeCasts_S800x1_S800x1 : S800x1.ShapeCasts S800x1
  iota_S800x1280_d1_w32 : S800x1280.Iotas .tc 32 [1]
  natLt_1_32 : 1 < 32
  broadcasts_S800x1_S800x1280 : S800x1.Broadcasts S800x1280
  inb_S800x1280_S800x1280_0_0 : ∀ a, (![0, 0] : Fin 2 → Nat) a + S800x1280.size a ≤ S800x1280.size a
  h_S800x1280 : 0 < S800x1280.numel
  shapeCasts_S100000x1280_S100000x5x256 : S100000x1280.ShapeCasts S100000x5x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x1.size a ≤ S100000x1.size a
  hwx0_0 : ∀ i : grid0.Coords, EltTy.bits .f32 = 32 ∨ (Rect.block (s := S100000x1) S800x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1280.size a ≤ S100000x1280.size a
  hwx0_1 : ∀ i : grid0.Coords, EltTy.bits .f32 = 32 ∨ (Rect.block (s := S100000x1280) S800x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x1280.size a ≤ S100000x1280.size a
  hwx0_2 : ∀ i : grid0.Coords, EltTy.bits .f32 = 32 ∨ (Rect.block (s := S100000x1280) S800x1280.size (cc0_transform_2 i) (hinb0_2 i)).WholeWords (EltTy.packing .f32)

variable [Facts₀]

abbrev win0_0 : Pipeline.Window sig grid0 :=
  Pipeline.Window.ofSpec (Memref.whole main_v0) S800x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S800x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S800x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000 : Shape := ⟨1, ![100000]⟩
abbrev S100000x1280 : Shape := ⟨2, ![100000, 1280]⟩
abbrev S100000x5x256 : Shape := ⟨3, ![100000, 5, 256]⟩
abbrev S_ : Shape := ⟨0, ![]⟩
abbrev S5 : Shape := ⟨1, ![5]⟩
abbrev S1x5 : Shape := ⟨2, ![1, 5]⟩
abbrev S100000x1 : Shape := ⟨2, ![100000, 1]⟩
abbrev S100000x5 : Shape := ⟨2, ![100000, 5]⟩
abbrev S100000x5x1 : Shape := ⟨3, ![100000, 5, 1]⟩

abbrev nBuf : Space → Nat
  | .hbm => 23
  | .vmem => 0
  | .smem => 0
  | _ => 0

abbrev bufTy : (tb : Table) → Fin (tcTables nBuf tb) → BufTy
  | .hbm, ⟨0, _⟩ => ⟨S100000, .f32⟩
  | .hbm, ⟨1, _⟩ => ⟨S100000x1280, .f32⟩
  | .hbm, ⟨2, _⟩ => ⟨S100000x5x256, .f32⟩
  | .hbm, ⟨3, _⟩ => ⟨S100000, .f32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S5, .i32⟩
  | .hbm, ⟨14, _⟩ => ⟨S1x5, .i32⟩
  | .hbm, ⟨15, _⟩ => ⟨S100000x1, .i32⟩
  | .hbm, ⟨16, _⟩ => ⟨S100000x5, .i32⟩
  | .hbm, ⟨17, _⟩ => ⟨S100000x5, .i32⟩
  | .hbm, ⟨18, _⟩ => ⟨S100000x5, .i1⟩
  | .hbm, ⟨19, _⟩ => ⟨S100000x5x1, .i1⟩
  | .hbm, ⟨20, _⟩ => ⟨S100000x5x1, .f32⟩
  | .hbm, ⟨21, _⟩ => ⟨S100000x5x256, .f32⟩
  | .hbm, ⟨22, _⟩ => ⟨S100000x5x256, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  shapeCasts_S100000x1280_S100000x5x256 : S100000x1280.ShapeCasts S100000x5x256
  bcast_S_S100000 : S_.BroadcastsInDim S100000 (![] : Fin 0 → Fin S100000.rank)
  bcast_S5_S1x5_1 : S5.BroadcastsInDim S1x5 (![1] : Fin 1 → Fin S1x5.rank)
  bcast_S100000_S100000x1_0 : S100000.BroadcastsInDim S100000x1 (![0] : Fin 1 → Fin S100000x1.rank)
  bcast_S1x5_S100000x5_0_1 : S1x5.BroadcastsInDim S100000x5 (![0, 1] : Fin 2 → Fin S100000x5.rank)
  bcast_S100000x1_S100000x5_0_1 : S100000x1.BroadcastsInDim S100000x5 (![0, 1] : Fin 2 → Fin S100000x5.rank)
  bcast_S100000x5_S100000x5x1_0_1 : S100000x5.BroadcastsInDim S100000x5x1 (![0, 1] : Fin 2 → Fin S100000x5x1.rank)
  bcast_S100000x5x1_S100000x5x256_0_1_2 : S100000x5x1.BroadcastsInDim S100000x5x256 (![0, 1, 2] : Fin 3 → Fin S100000x5x256.rank)

variable [Facts₀]

class Facts : Prop extends Facts₀ where

variable [Facts]
-- ==== Proof.Spec.lean ====
/-
  The function both programs compute, and the word arithmetic that joins their two spellings of it.

  A node `n` carries a predicted count `pred n` and five feature slots of 256 lanes each. Its DEGREE is
  `pred n` rounded to the nearest integer (ties to even), clamped to `[0, 5]`; slot `p` of node `n` is kept
  when `p < degree` and zeroed otherwise: `out (n, p, q) = feat (n, 256 p + q) · [p < degree n]`.

  The two programs differ in three places, all in how the integer `degree` and the slot number are reached:
  * the kernel clamps the rounded FLOAT to `[0.0, 5.0]` and then converts to a word; the reference converts the
    rounded float to a word (the conversion saturates at the ends of the 32-bit range, infinities included) and
    then clamps the word to `[0, 5]`. Both are the integer nearest `pred n` clamped to `[0, 5]`
    (`clampThenConvert`): on every extended real, so no finiteness is needed;
  * the kernel finds the slot of lane `j < 1280` by a floor division of the lane number by 256, spelt with a
    truncated division and a sign correction; on these non-negative lane numbers it is `j / 256` (`slotWord_eq`);
  * the kernel widens the one-bit comparison to 32 bits and converts it as a signed integer, the reference
    converts the bit as an unsigned one: both give `0` or `1` (`gate_signed`).
-/
import Idealize.ShloMosaic.PureOps.Ideal
import Idealize.ShloMosaic.Lib.ValueIdx

noncomputable section

namespace Cert.SlotMask

open Idealize.ShloMosaic Idealize.ShloMosaic.ValueIdx

/-! ## The two float constants -/

/-- The pattern of `5.0` denotes the real `5`. -/
theorem ofBits_five : Ideal.ofBits .f32 0x40A00000#32 = ((5 : ℝ) : EReal) := by
  simp [Ideal.ofBits, Ideal.ieee, -EReal.coe_mul]; norm_num

/-- The pattern of `+0.0` denotes `0`. -/
theorem ofBits_zero : Ideal.ofBits .f32 0x00000000#32 = ((0 : ℝ) : EReal) := by
  simp [Ideal.ofBits, Ideal.ieee]

/-! ## The degree -/

/-- The degree of a node as a 32-bit word: the predicted count rounded to the nearest integer (ties to even),
    converted (saturating), then clamped to `[0, 5]` as a signed word. -/
def degree (x : EReal) : BitVec 32 :=
  IntOp.minsi 5#32 (IntOp.maxsi 0#32 (Ideal.fptosi 32 (Ideal.liftRound Ideal.roundHalfEven x)))

/-- A word made from an integer inside the signed 32-bit range reads back as that integer. -/
theorem toInt_ofInt32 (c : ℤ) (h1 : -2147483648 ≤ c) (h2 : c ≤ 2147483647) : (BitVec.ofInt 32 c).toInt = c :=
  BitVec.toInt_ofInt_eq_self (by decide) (by norm_num; omega) (by norm_num; omega)

/-- Clamping an integer to `[0, 5]` and making a word of it is making a word of the integer saturated to the
    32-bit range and clamping that word to `[0, 5]` by signed comparisons. -/
theorem clampWord (n : ℤ) :
    BitVec.ofInt 32 (min 5 (max 0 n))
      = IntOp.minsi 5#32 (IntOp.maxsi 0#32 (BitVec.ofInt 32 (max (-2147483648) (min 2147483647 n)))) := by
  have t0 : (0#32 : BitVec 32).toInt = 0 := by decide
  have t5 : (5#32 : BitVec 32).toInt = 5 := by decide
  generalize hcdef : max (-2147483648) (min 2147483647 n) = c
  have hc := toInt_ofInt32 c (by omega) (by omega)
  have hm : IntOp.maxsi 0#32 (BitVec.ofInt 32 c) = BitVec.ofInt 32 (max 0 c) := by
    unfold IntOp.maxsi
    rw [BitVec.slt_eq_decide, hc, t0]
    by_cases h0 : c < 0
    · rw [if_pos (decide_eq_true h0), max_eq_left (le_of_lt h0)]; rfl
    · rw [if_neg (by simpa using h0), max_eq_right (not_lt.mp h0)]
  have hc2 := toInt_ofInt32 (max 0 c) (by omega) (by omega)
  rw [hm]
  unfold IntOp.minsi
  rw [BitVec.slt_eq_decide, hc2, t5]
  by_cases h5 : 5 < max 0 c
  · rw [if_pos (decide_eq_true h5)]
    have e : min 5 (max 0 n) = 5 := by omega
    rw [e]; rfl
  · rw [if_neg (by simpa using h5)]
    congr 1; omega

/-- The saturating conversion of an integer-valued real: the integer saturated to the signed 32-bit range. -/
theorem fptosi_int (k : ℤ) :
    Ideal.fptosi 32 (((k : ℝ)) : EReal) = BitVec.ofInt 32 (max (-2147483648) (min 2147483647 k)) := by
  rw [Ideal.fptosi, Ideal.toIntClamped_coe]
  simp only [Int.floor_intCast, Int.ceil_intCast, ite_self]
  norm_num

/-- CLAMP THEN CONVERT IS CONVERT THEN CLAMP, on every extended real: the rounded count clamped to `[0.0, 5.0]` as
    a float and then converted is the `degree`. At `-∞` both are `0` (the float clamp gives `0.0`; the conversion
    saturates to the least word, which the word clamp raises to `0`), at `+∞` both are `5`, and at a real both are
    the nearest integer clamped to `[0, 5]` (`clampWord`). -/
theorem clampThenConvert (x : EReal) :
    Ideal.fptosi 32 (min (Ideal.ofBits .f32 0x40A00000#32)
      (max (Ideal.ofBits .f32 0x00000000#32) (Ideal.liftRound Ideal.roundHalfEven x))) = degree x := by
  rw [ofBits_five, ofBits_zero]
  unfold degree
  induction x using EReal.rec with
  | bot =>
    rw [Ideal.liftRound_bot, max_bot_right, min_eq_right (by exact_mod_cast (by norm_num : (0 : ℝ) ≤ 5))]
    have e0 : ((0 : ℝ) : EReal) = (((0 : ℤ) : ℝ) : EReal) := by norm_num
    rw [e0, fptosi_int]
    have eb : Ideal.fptosi 32 (⊥ : EReal) = BitVec.ofInt 32 (-2147483648) := by
      rw [Ideal.fptosi]; rfl
    rw [eb]; decide
  | top =>
    rw [Ideal.liftRound_top, max_top_right, min_top_right]
    have e5 : ((5 : ℝ) : EReal) = (((5 : ℤ) : ℝ) : EReal) := by norm_num
    rw [e5, fptosi_int]
    have et : Ideal.fptosi 32 (⊤ : EReal) = BitVec.ofInt 32 2147483647 := by
      rw [Ideal.fptosi]; rfl
    rw [et]; decide
  | coe r =>
    rw [Ideal.liftRound_coe]
    generalize Ideal.roundHalfEven r = n
    have e : min ((5 : ℝ) : EReal) (max ((0 : ℝ) : EReal) (((n : ℤ) : ℝ) : EReal))
        = (((min 5 (max 0 n) : ℤ) : ℝ) : EReal) := by
      have hmono := EReal.coe_strictMono.monotone
      rw [← hmono.map_max, ← hmono.map_min]; congr 1; push_cast; rfl
    rw [e, fptosi_int, fptosi_int, ← clampWord]
    congr 1; omega

/-! ## The slot of a lane -/

/-- The kernel's spelling of "the lane number divided by 256, rounded down", on one lane word `b`: the quotient
    truncated toward zero, lowered by one where the signs of dividend and divisor differ and the remainder is not
    zero. -/
def slotWord (b : BitVec 32) : BitVec 32 :=
  Scalar.select
    (IntOp.andi
      (IntOp.cmpi .ne
        (IntOp.subi ((IntOp.cmpi .sgt b 0#32).setWidth 32) ((IntOp.cmpi .slt b 0#32).setWidth 32))
        (Scalar.subi (Scalar.extui (Scalar.cmpi .sgt 256#32 0#32)) (Scalar.extui (Scalar.cmpi .slt 256#32 0#32))))
      (IntOp.cmpi .ne (IntOp.remsi .vector b 256#32) 0#32))
    (IntOp.subi (IntOp.divsi .vector b 256#32) 1#32)
    (IntOp.divsi .vector b 256#32)

/-- On the 1280 lane numbers of a row it is the natural-number quotient by 256: the slot, `0` to `4`. Checked lane
    by lane (the lane numbers are non-negative, so the correction never fires). -/
theorem slotWord_eq : ∀ j : Fin 1280, slotWord (BitVec.ofNat 32 j.val) = BitVec.ofNat 32 (j.val / 256) := by
  decide +kernel

/-! ## The gate -/

/-- `1` when slot `p` is below the degree `d` (as signed words), else `0`. -/
def gate (p d : BitVec 32) : EReal := (((IntOp.cmpi .slt p d).toNat : ℝ) : EReal)

/-- A one-bit word widened to 32 bits and read SIGNED is the bit read unsigned: `0` or `1`. -/
theorem widen_signed : ∀ b : BitVec 1, (b.setWidth 32).toInt = (b.toNat : ℤ) := by decide

/-! ## The result, as one function of the two argument arrays -/

/-- The masked features as a `[100000, 1280]` array: lane `j` of node `n` is kept when its slot `j / 256` is below
    the node's degree. -/
def maskedRows (pred : (⟨1, ![100000]⟩ : Shape).Idx → EReal) (feat : (⟨2, ![100000, 1280]⟩ : Shape).Idx → EReal) :
    (⟨2, ![100000, 1280]⟩ : Shape).Idx → EReal :=
  fun i => feat i * gate (BitVec.ofNat 32 ((i 1).val / 256)) (degree (pred (ix1 (i 0))))

/-- The same at coordinates `(n, p, q)` of the `[100000, 5, 256]` result: lane `256 p + q` of node `n`, kept when
    `p` is below the degree. -/
def maskedAt (pred : (⟨1, ![100000]⟩ : Shape).Idx → EReal) (feat : (⟨2, ![100000, 1280]⟩ : Shape).Idx → EReal)
    (n : Fin 100000) (p : Fin 5) (q : Fin 256) : EReal :=
  feat (ix2 n (⟨p.val * 256 + q.val, by omega⟩ : Fin 1280)) * gate (BitVec.ofNat 32 p.val) (degree (pred (ix1 n)))

/-- THE RESULT both programs end with: the `[100000, 5, 256]` array of masked features. -/
def masked (pred : (⟨1, ![100000]⟩ : Shape).Idx → EReal) (feat : (⟨2, ![100000, 1280]⟩ : Shape).Idx → EReal) :
    (⟨3, ![100000, 5, 256]⟩ : Shape).Idx → EReal :=
  fun i => maskedAt pred feat (i 0) (i 1) (i 2)

/-- The row form read at lane `256 p + q` is the coordinate form: that lane's slot is `p`. -/
theorem maskedRows_apply (pred : (⟨1, ![100000]⟩ : Shape).Idx → EReal) (feat : (⟨2, ![100000, 1280]⟩ : Shape).Idx → EReal)
    (n : Fin 100000) (p : Fin 5) (q : Fin 256) :
    maskedRows pred feat (ix2 n (⟨p.val * 256 + q.val, by omega⟩ : Fin 1280)) = maskedAt pred feat n p q := by
  unfold maskedRows maskedAt
  have e : (p.val * 256 + q.val) / 256 = p.val := by omega
  show feat _ * gate (BitVec.ofNat 32 ((p.val * 256 + q.val) / 256)) _ = _
  rw [e]

end Cert.SlotMask

end
-- ==== Proof.RefValue.lean ====
/-
  The reference, read index by index, is the masked-features function of `Spec.lean`.

  The reference reshapes the features to `[100000, 5, 256]` (entry `(n, p, q)` is lane `256 p + q` of node `n`),
  rounds the predicted counts, converts them to words, clamps the words to `[0, 5]`, compares the slot numbers
  `0 … 4` with them, converts the bit to a float and multiplies. Each operation is read at an index by the generated
  read lemmas; what is left is that the composed index maps are the coordinates themselves.
-/
import proofs.«120738_j38817914421902_1_alg».proof.Proof.Gen.ReferenceIdeal.Read
import proofs.«120738_j38817914421902_1_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx Cert.SlotMask

/-- Entry `(n, p, q)` of the reshaped features is lane `256 p + q` of node `n`: its row-major position
    `(5 n + p) · 256 + q` divided by, and modulo, the row length 1280. -/
theorem lane_idx (n : Fin 100000) (p : Fin 5) (q : Fin 256) :
    idx_main_v0 (ix3 n p q) = ix2 n (⟨p.val * 256 + q.val, by omega⟩ : Fin 1280) := by
  funext a
  match a with
  | ⟨0, _⟩ => apply Fin.ext; show ((n.val * 5 + p.val) * 256 + q.val) / 1280 = n.val; omega
  | ⟨1, _⟩ => apply Fin.ext; show ((n.val * 5 + p.val) * 256 + q.val) % 1280 = p.val * 256 + q.val; omega

/-- The degree broadcast to `(n, p, q)` is node `n`'s. -/
theorem node_idx (n : Fin 100000) (p : Fin 5) (q : Fin 256) :
    idx_main_v6 (idx_main_v8 (idx_main_v10 (idx_main_v12 (ix3 n p q)))) = ix1 n := by
  funext a; match a with | ⟨0, _⟩ => rfl

/-- THE REFERENCE'S RESULT is `masked` of its two arguments. -/
theorem result_eq (x0 : (⟨S100000, .f32⟩ : BufTy).Contents (Elt Ideal)) (x1 : (⟨S100000x1280, .f32⟩ : BufTy).Contents (Elt Ideal)) :
    val_main_v13 (F := Ideal) x0 x1 = masked x0 x1 := by
  funext i
  obtain ⟨n, p, q, rfl⟩ : ∃ (n : Fin 100000) (p : Fin 5) (q : Fin 256), i = ix3 n p q := ⟨i 0, i 1, i 2, eq_ix3 i⟩
  rw [val_main_v13_apply, val_main_v0_apply, val_main_v12_apply, val_main_v11_apply, val_main_v10_apply,
    val_main_v9_apply, val_main_v7_apply, val_main_v5_apply, val_main_v4_apply, val_main_v8_apply, val_main_v6_apply,
    val_main_v3_apply, val_main_call1_v4_apply, val_main_call1_v3_apply, val_main_c_0_apply, val_main_call1_v2_apply,
    val_main_call1_v1_apply, val_main_call1_v0_apply, val_main_c_apply, val_main_v2_apply, val_main_v1_apply,
    lane_idx, node_idx]
  rfl

end Cert.ReferenceIdeal.RefValue

end
-- ==== Proof.KernelBlock.lean ====
/-
  One row tile of the kernel: what the body stores, read at row `r` and lane `j` of the tile.

  The body loads the tile's `[800, 1]` column of predicted counts and its `[800, 1280]` features, rounds the
  counts, clamps them to `[0.0, 5.0]`, converts them to words, broadcasts the column along the lanes, compares
  each lane's slot (lane number divided by 256, rounded down) with it, converts the bit to a float and multiplies.
  At `(r, j)` this is `feat (r, j) · [j / 256 < degree (pred (r, 0))]`: the clamp-then-convert is the degree
  (`clampThenConvert`), the slot spelling is the quotient (`slotWord_eq`), the widened bit read signed is the bit
  (`widen_signed`).
-/
import proofs.«120738_j38817914421902_1_alg».proof.Proof.Gen.KernelIdeal.Skeleton
import proofs.«120738_j38817914421902_1_alg».proof.Proof.Spec
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.SlotMask

/-- The tile's degrees as the body makes them: the rounded counts clamped as floats, converted, and the column
    broadcast along the lanes. -/
def degVec (x0 : Vec Ideal S800x1 .f32) : IVec S800x1280 32 :=
  broadcastTo S800x1280
    (shapeCast S800x1
      (fptosi 32 (minimumf (broadcast S800x1 (Scalar.ofBits (F := Ideal) .f32 0x40A00000#32))
        (maximumf (broadcast S800x1 (Scalar.ofBits (F := Ideal) .f32 0x00000000#32))
          (roundeven (shapeCast S800x1 x0 shapeCasts_S800x1_S800x1)))))
      shapeCasts_S800x1_S800x1)
    broadcasts_S800x1_S800x1280

/-- The lane numbers of the tile. -/
def laneVec : IVec S800x1280 32 := iota .tc S800x1280 32 [1] iota_S800x1280_d1_w32

/-- The body's stored value, entry by entry: the feature times the widened comparison of the lane's slot with the
    broadcast degree, read as a signed integer. By unfolding the body's pointwise operations. -/
theorem payload_eq (x0 : Vec Ideal S800x1 .f32) (x38 : Vec Ideal S800x1280 .f32) :
    k0_pay1 (F := Ideal) x0 x38
      = fun i => x38 i * ((((IntOp.cmpi .slt (slotWord (laneVec i)) (degVec x0 i)).setWidth 32).toInt : ℝ) : EReal) := rfl

/-- A column broadcast along the lanes reads, at `(r, j)`, the column's entry of row `r`. -/
theorem column_bcast {α : Type} (v : S800x1.Idx → α) (r : Fin 800) (j : Fin 1280) :
    broadcastTo S800x1280 v broadcasts_S800x1_S800x1280 (ix2 r j) = v (ix2 r (0 : Fin 1)) := by
  refine broadcastTo_apply v broadcasts_S800x1_S800x1280 (ix2 r j) (ix2 r (0 : Fin 1)) fun ax => ?_
  match ax with
  | ⟨0, _⟩ => rfl
  | ⟨1, _⟩ => rfl

/-- The broadcast degree at `(r, j)` is the degree of row `r`'s count. -/
theorem degVec_apply (x0 : Vec Ideal S800x1 .f32) (r : Fin 800) (j : Fin 1280) :
    degVec x0 (ix2 r j) = degree (x0 (ix2 r (0 : Fin 1))) := by
  unfold degVec
  rw [column_bcast, shapeCast_self, shapeCast_self]
  exact clampThenConvert (x0 (ix2 r (0 : Fin 1)))

/-- The lane number at `(r, j)` is `j`. -/
theorem laneVec_apply (r : Fin 800) (j : Fin 1280) : laneVec (ix2 r j) = BitVec.ofNat 32 j.val :=
  iota_single_apply .tc S800x1280 32 1 iota_S800x1280_d1_w32 (ix2 r j)

/-- WHAT THE BODY STORES at row `r`, lane `j` of the tile. -/
theorem payload_apply (x0 : Vec Ideal S800x1 .f32) (x38 : Vec Ideal S800x1280 .f32) (r : Fin 800) (j : Fin 1280) :
    k0_pay1 (F := Ideal) x0 x38 (ix2 r j)
      = x38 (ix2 r j) * gate (BitVec.ofNat 32 (j.val / 256)) (degree (x0 (ix2 r (0 : Fin 1)))) := by
  rw [payload_eq]
  show x38 (ix2 r j) * ((((IntOp.cmpi .slt (slotWord (laneVec (ix2 r j))) (degVec x0 (ix2 r j))).setWidth 32).toInt : ℝ) : EReal) = _
  rw [laneVec_apply, degVec_apply, slotWord_eq j, widen_signed]
  rfl

end Cert.KernelIdeal.Block

end
-- ==== Proof.KernelArray.lean ====
/-
  From row tiles to the kernel's result.

  The grid has 125 points; point `t` reads rows `800 t … 800 t + 799` of the count column and of the features and
  writes the same rows of the `[100000, 1280]` output. The count column the region reads is the count vector viewed
  `[100000, 1]` by the reshape before the region. So what point `t` writes back is rows `800 t …` of
  `maskedRows` of the two arguments; the 125 row blocks cover the array, which therefore ends at `maskedRows`; and
  the reshape after the region views it `[100000, 5, 256]`: `masked`.
-/
import proofs.«120738_j38817914421902_1_alg».proof.Proof.Gen.KernelIdeal.Frame
import proofs.«120738_j38817914421902_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.KernelIdeal.Block Idealize.ShloMosaic.ValueIdx Cert.SlotMask

variable (m : (ℓ : Loc nD τ sig) → Buf (Elt Ideal) ℓ) (ρ : Dev nD → PrngReg)

theorem hz : (![0, 0] : Fin 2 → Nat) = fun _ => 0 := funext fun a => by fin_cases a <;> rfl

/-- The predicted counts as launched. -/
abbrev predArr (c : Dev nD) : S100000.Idx → EReal := m ((c : Thread nD τ).loc main_arg0)
/-- The features as launched. -/
abbrev featArr (c : Dev nD) : S100000x1280.Idx → EReal := m ((c : Thread nD τ).loc main_arg1)

/-- The three windows' block indices at point `t`: row block `t`, the one lane block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## The arrays the region finds -/

/-- The count column the region reads is the count vector viewed `[100000, 1]`. -/
theorem column_eq (c : Dev nD) :
    (V m c main_v0 : S100000x1.Idx → EReal) = shapeCast S100000x1 (predArr m c) shapeCasts_S100000_S100000x1 := by
  show StableHlo.after hostOps0 (fun b => m (c, b)) (Proc.devRef .tc main_v0) = _
  after_results
  rfl

/-- Its entry of row `n` is node `n`'s count. -/
theorem column_apply (c : Dev nD) (k : S100000x1.Idx) :
    (V m c main_v0 : S100000x1.Idx → EReal) k = predArr m c (ix1 (k 0)) := by
  rw [column_eq]
  refine shapeCast_apply _ shapeCasts_S100000_S100000x1 k (ix1 (k 0)) ?_
  rw [Shape.rowMajor_val_one, Shape.rowMajor_val_two]
  have h1 : (k 1).val < 1 := (k 1).isLt
  show (k 0).val = (k 0).val * 1 + (k 1).val
  omega

/-! ## The input blocks -/

/-- Entry `x` of the count block at point `t` is the column's entry of row `800 t + x₀`. -/
theorem pred_block (c : Dev nD) (t : Fin cfg0.N) (x : S800x1.Idx) (k : S100000x1.Idx)
    (hk0 : (k 0).val = 800 * t.val + (x 0).val) :
    (iblk m c 0 t : Vec Ideal S800x1 .f32) x = (V m c main_v0 : S100000x1.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 800 + 1 * (x 0).val = (k 0).val; rw [e0, hk0]; omega
  | ⟨1, _⟩ =>
    show win0_0.index t 1 * 1 + 1 * (x 1).val = (k 1).val
    have h1 : (x 1).val < 1 := (x 1).isLt
    have h2 : (k 1).val < 1 := (k 1).isLt
    rw [e1]; omega

/-- Entry `x` of the feature block at point `t` is the features' entry of row `800 t + x₀`, lane `x₁`. -/
theorem feat_block (c : Dev nD) (t : Fin cfg0.N) (x : S800x1280.Idx) (k : S100000x1280.Idx)
    (hk0 : (k 0).val = 800 * t.val + (x 0).val) (hk1 : (k 1).val = (x 1).val) :
    (iblk m c 1 t : Vec Ideal S800x1280 .f32) x = featArr m c k := by
  obtain ⟨-, -, e0, e1, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 800 + 1 * (x 0).val = (k 0).val; rw [e0, hk0]; omega
  | ⟨1, _⟩ => show win0_1.index t 1 * 1280 + 1 * (x 1).val = (k 1).val; rw [e1, hk1]; omega

/-! ## What a point writes back -/

/-- Entry `j` of what the body leaves at point `t` is `maskedRows` at row `800 t + j₀`, lane `j₁`: the tile's
    stored value (`payload_apply`) with its two blocks read out of the arrays. -/
theorem tile_at (c : Dev nD) (t : Fin cfg0.N) (j : S800x1280.Idx) (k : S100000x1280.Idx)
    (hk0 : (k 0).val = 800 * t.val + (j 0).val) (hk1 : (k 1).val = (j 1).val) :
    k0_pay1 (F := Ideal) (iblk m c 0 t) (iblk m c 1 t) j = maskedRows (predArr m c) (featArr m c) k := by
  obtain ⟨r, l, rfl⟩ : ∃ (r : Fin 800) (l : Fin 1280), j = ix2 r l := ⟨j 0, j 1, eq_ix2 j⟩
  refine (payload_apply (iblk m c 0 t) (iblk m c 1 t) r l).trans ?_
  have hp : (iblk m c 0 t : Vec Ideal S800x1 .f32) (ix2 r (0 : Fin 1)) = predArr m c (ix1 (k 0)) :=
    (pred_block m c t (ix2 r (0 : Fin 1)) (ix2 (k 0) (0 : Fin 1)) hk0).trans (column_apply m c (ix2 (k 0) (0 : Fin 1)))
  have hf : (iblk m c 1 t : Vec Ideal S800x1280 .f32) (ix2 r l) = featArr m c k := feat_block m c t (ix2 r l) k hk0 hk1
  have hl : l.val = (k 1).val := hk1.symm
  unfold maskedRows
  rw [hp, hf, hl]

/-- WHAT POINT `t` WRITES BACK is block `t` of `maskedRows` of the two arguments. -/
theorem flushed_eq (c : Dev nD) (t : Fin cfg0.N) :
    (dats m 0 c).flushed 2 t = ((cfg0.win 2).blk t).view.read (Elt Ideal) (maskedRows (predArr m c) (featArr m c)) := by
  show (cfg0.win 2).cut (grid0.coords t) ((dats m 0 c).after 2 t) = _
  rw [after0_2]
  unfold out0_2
  rw [View.canon_unit_zero hz]
  simp only [View.ld_unit_zero (S := S800x1) hz, View.ld_unit_zero (S := S800x1280) hz]
  obtain ⟨-, -, -, -, e0, e1⟩ := idx_facts t
  funext j
  show k0_pay1 (F := Ideal) (iblk m c 0 t) (iblk m c 1 t) j = maskedRows (predArr m c) (featArr m c) (((cfg0.win 2).blk t).view.emb j)
  refine tile_at m c t j _ ?_ ?_
  · show win0_2.index t 0 * 800 + 1 * (j 0).val = 800 * t.val + (j 0).val
    rw [e0]; omega
  · show win0_2.index t 1 * 1280 + 1 * (j 1).val = (j 1).val
    rw [e1]; omega

/-! ## The cover, and the array after the region -/

/-- An index of the output array is in point `t`'s block iff each coordinate is in the block's range. -/
theorem mem_blk (t : Fin cfg0.N) (i : S100000x1280.Idx) :
    i ∈ ((cfg0.win 2).blk t).view.set ↔ ∀ a : Fin 2, win0_2.index t a * S800x1280.size a ≤ (i a).val ∧ (i a).val < win0_2.index t a * S800x1280.size a + S800x1280.size a := by
  show i ∈ ((View.whole main_v1).slice (win0_2.rect t)).set ↔ _
  rw [View.set_slice_whole, Rect.mem_set_unit]
  exact Iff.rfl

/-- Row `n` of the output is in the block of point `n / 800`. -/
theorem covered (i : S100000x1280.Idx) :
    ∃ t : Fin cfg0.N, (cfg0.win 2).flush t = true ∧ i ∈ ((cfg0.win 2).blk t).view.set := by
  have h0 : (i 0).val < 100000 := (i 0).isLt
  have h1 : (i 1).val < 1280 := (i 1).isLt
  have hN : cfg0.N = 125 := N_0
  have ht : (i 0).val / 800 < cfg0.N := by rw [hN]; omega
  obtain ⟨-, -, -, -, e0, e1⟩ := idx_facts ⟨(i 0).val / 800, ht⟩
  refine ⟨⟨(i 0).val / 800, ht⟩, flush0_2 _, ?_⟩
  rw [mem_blk]
  intro a
  match a with
  | ⟨0, _⟩ =>
    show win0_2.index ⟨(i 0).val / 800, ht⟩ 0 * 800 ≤ (i 0).val ∧ (i 0).val < win0_2.index ⟨(i 0).val / 800, ht⟩ 0 * 800 + 800
    rw [e0]; show (i 0).val / 800 * 800 ≤ (i 0).val ∧ (i 0).val < (i 0).val / 800 * 800 + 800; omega
  | ⟨1, _⟩ =>
    show win0_2.index ⟨(i 0).val / 800, ht⟩ 1 * 1280 ≤ (i 1).val ∧ (i 1).val < win0_2.index ⟨(i 0).val / 800, ht⟩ 1 * 1280 + 1280
    rw [e1]; omega

/-- THE OUTPUT ARRAY after the region is `maskedRows` of the two arguments. -/
theorem final (c : Dev nD) : (dats m 0 c).arrAt 2 cfg0.N = maskedRows (predArr m c) (featArr m c) :=
  (dats m 0 c).arrAt_eq_of_cover 2 (maskedRows (predArr m c) (featArr m c)) (fun t _ => flushed_eq m c t) covered

/-! ## The reshape after the region, and the run -/

/-- The result buffer after the reshape that follows the region is `masked` of the two arguments: entry
    `(n, p, q)` reads the output array at row `n`, lane `256 p + q` (the same row-major position). -/
theorem tail_eq (c : Dev nD) :
    Pipeline.afterTail₀ cfgs (dats m) 0 (V0 m) [hostOps1] c main_v2 = masked (predArr m c) (featArr m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = maskedRows (predArr m c) (featArr m c) :=
    (Pipeline.withArrays_arr spec0 launch0.win.arr_inj c _ _ 2).trans (final m c)
  rw [hw]
  funext i
  obtain ⟨n, p, q, rfl⟩ : ∃ (n : Fin 100000) (p : Fin 5) (q : Fin 256), i = ix3 n p q := ⟨i 0, i 1, i 2, eq_ix3 i⟩
  show shapeCast S100000x5x256 (maskedRows (predArr m c) (featArr m c)) shapeCasts_S100000x1280_S100000x5x256 (ix3 n p q)
    = maskedAt (predArr m c) (featArr m c) n p q
  rw [← maskedRows_apply]
  refine shapeCast_apply _ shapeCasts_S100000x1280_S100000x5x256 (ix3 n p q) (ix2 n (⟨p.val * 256 + q.val, by omega⟩ : Fin 1280)) ?_
  rw [Shape.rowMajor_val_two, Shape.rowMajor_val_three]
  show n.val * 1280 + (p.val * 256 + q.val) = (n.val * 5 + p.val) * 256 + q.val
  omega

/-- THE KERNEL'S RUN, read: every weakly fair execution terminates with the result at `masked` of the two
    arguments and the arguments unchanged. -/
theorem run : θ_run defs (onTc (τ := τ) (main (F := Ideal))) ⟨m, fun _ => 0, ρ⟩ fun r => ∀ c : Dev nD,
      r.2.mem ((c.tc : Thread nD τ).loc main_v2) = masked (predArr m c) (featArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Rows

end
-- ==== Proof.lean ====
/-
  A ragged-sequence mask. Node `n` of 100000 carries a predicted count and five feature slots of 256 lanes; its
  degree is the count rounded to the nearest integer (ties to even) and clamped to `[0, 5]`; slot `p` is kept when
  `p < degree` and zeroed otherwise:

      out (n, p, q) = feat (n, 256 p + q) · [p < clamp₀⁵ (round (pred n))].

  The kernel streams 125 row tiles of 800 nodes, clamps the rounded count as a FLOAT before converting it to a word,
  and finds each lane's slot by a floor division of the lane number; the reference converts first (saturating) and
  clamps the word, and compares the five slot numbers directly. Over the extended reals the two agree on every
  input, infinite counts included, so the precondition is never opened: `Proof/Spec.lean` has the function
  (`masked`) and the three word facts, `Proof/RefValue.lean` reads the reference as `masked`,
  `Proof/KernelBlock.lean` one tile of the kernel, `Proof/KernelArray.lean` the tiles assembled and the kernel's run.
  The kernel's reading over the extended reals is its own text, operation for operation, so nothing is owed for it.
-/
import proofs.«120738_j38817914421902_1_alg».proof.Defs
import proofs.«120738_j38817914421902_1_alg».proof.Proof.Gen.Kernel
import proofs.«120738_j38817914421902_1_alg».proof.Proof.Gen.Kernel.Skeleton
import proofs.«120738_j38817914421902_1_alg».proof.Proof.Gen.Kernel.Launch
import proofs.«120738_j38817914421902_1_alg».proof.Proof.Gen.Kernel.Points
import proofs.«120738_j38817914421902_1_alg».proof.Proof.Gen.Kernel.Frame
import proofs.«120738_j38817914421902_1_alg».proof.Proof.Gen.KernelIdeal
import proofs.«120738_j38817914421902_1_alg».proof.Proof.Gen.KernelIdeal.Skeleton
import proofs.«120738_j38817914421902_1_alg».proof.Proof.Gen.KernelIdeal.Launch
import proofs.«120738_j38817914421902_1_alg».proof.Proof.Gen.KernelIdeal.Points
import proofs.«120738_j38817914421902_1_alg».proof.Proof.Gen.KernelIdeal.Frame
import proofs.«120738_j38817914421902_1_alg».proof.Proof.Gen.ReferenceIdeal
import proofs.«120738_j38817914421902_1_alg».proof.Proof.Gen.Pre_finite_inputs
import proofs.«120738_j38817914421902_1_alg».proof.Proof.Gen.ReferenceIdeal.Run
import proofs.«120738_j38817914421902_1_alg».proof.Proof.Gen.ReferenceIdeal.Read
import proofs.«120738_j38817914421902_1_alg».proof.Proof.Spec
import proofs.«120738_j38817914421902_1_alg».proof.Proof.RefValue
import proofs.«120738_j38817914421902_1_alg».proof.Proof.KernelBlock
import proofs.«120738_j38817914421902_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs, and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `masked` of the two arguments: the kernel by its run read tile by tile, the reference
    by its operations read index by index. -/
theorem algebraic : Cert.algebraic_KernelIdeal_ReferenceIdeal := by
  intro m ρ m' ρ' _ hagree
  refine ⟨fun c => Cert.SlotMask.masked (Cert.KernelIdeal.Rows.predArr m c) (Cert.KernelIdeal.Rows.featArr m c),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
